-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S1024x256 : Shape := ⟨2, ![1024, 256]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16x4096x256 .f32) (main_arg1 : FVec F S1024x256 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S16x4096x256 : Shape := ⟨3, ![16, 4096, 256]⟩
abbrev S1024x256 : Shape := ⟨2, ![1024, 256]⟩
abbrev S65536x256 : Shape := ⟨2, ![65536, 256]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S65536x1024 : Shape := ⟨2, ![65536, 1024]⟩
abbrev S1024x1024 : Shape := ⟨2, ![1024, 1024]⟩
abbrev S16x4096x1024 : Shape := ⟨3, ![16, 4096, 1024]⟩

abbrev nBuf : Space → Nat
  | .hbm => 20
  | .vmem => 8
  | .smem => 0
  | _ => 0

abbrev bufTy : (tb : Table) → Fin (tcTables nBuf tb) → BufTy
  | .hbm, ⟨0, _⟩ => ⟨S16x4096x256, .f32⟩
  | .hbm, ⟨1, _⟩ => ⟨S1024x256, .f32⟩
  | .hbm, ⟨2, _⟩ => ⟨S65536x256, .f32⟩
  | .hbm, ⟨3, _⟩ => ⟨S1024x256, .bf16⟩
  | .hbm, ⟨4, _⟩ => ⟨S1024x256, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S65536x256, .f32⟩
  | .hbm, ⟨17, _⟩ => ⟨S65536x1024, .f32⟩
  | .hbm, ⟨18, _⟩ => ⟨S16x4096x256, .f32⟩
  | .hbm, ⟨19, _⟩ => ⟨S16x4096x1024, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1x1024, .f32⟩
  | .local _ .vmem, ⟨4, _⟩ => ⟨S1024x256, .f32⟩
  | .local _ .vmem, ⟨5, _⟩ => ⟨S1024x256, .f32⟩
  | .local _ .vmem, ⟨6, _⟩ => ⟨S1024x1024, .f32⟩
  | .local _ .vmem, ⟨7, _⟩ => ⟨S1024x1024, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4096x256_S65536x256 : S16x4096x256.ShapeCasts S65536x256
  bitsLt_bf16_f32 : FTy.bits .bf16 < FTy.bits .f32
  reducesTo_S1024x256_S1024_d1 : S1024x256.ReducesTo [1] S1024
  h_S_ : 0 < S_.numel
  bcast_S1024_S1024x1_0 : S1024.BroadcastsInDim S1024x1 (![0] : Fin 1 → Fin S1024x1.rank)
  shapeCasts_S1024x1_S1x1024 : S1024x1.ShapeCasts S1x1024
  bcast_S_S1x1024 : S_.BroadcastsInDim S1x1024 (![] : Fin 0 → Fin S1x1024.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  shapeCasts_S65536x256_S16x4096x256 : S65536x256.ShapeCasts S16x4096x256
  shapeCasts_S65536x1024_S16x4096x1024 : S65536x1024.ShapeCasts S16x4096x1024
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S65536x256.size a
  hwx0_3 : ∀ i : grid0.Coords, EltTy.bits .f32 = 32 ∨ (Rect.block (s := S65536x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S65536x1024.size a
  hwx0_4 : ∀ i : grid0.Coords, EltTy.bits .f32 = 32 ∨ (Rect.block (s := S65536x1024) S1024x1024.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x256 : Shape := ⟨3, ![16, 4096, 256]⟩
abbrev S1024x256 : Shape := ⟨2, ![1024, 256]⟩
abbrev S65536x256 : Shape := ⟨2, ![65536, 256]⟩
abbrev S_ : Shape := ⟨0, ![]⟩
abbrev S65536 : Shape := ⟨1, ![65536]⟩
abbrev S65536x1 : Shape := ⟨2, ![65536, 1]⟩
abbrev S1024 : Shape := ⟨1, ![1024]⟩
abbrev S256x1024 : Shape := ⟨2, ![256, 1024]⟩
abbrev S65536x1024 : Shape := ⟨2, ![65536, 1024]⟩
abbrev S1x1024 : Shape := ⟨2, ![1, 1024]⟩
abbrev S16x4096x1024 : Shape := ⟨3, ![16, 4096, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S1024x256, .f32⟩
  | .hbm, ⟨2, _⟩ => ⟨S65536x256, .f32⟩
  | .hbm, ⟨3, _⟩ => ⟨S65536x256, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S256x1024, .f32⟩
  | .hbm, ⟨11, _⟩ => ⟨S65536x1024, .f32⟩
  | .hbm, ⟨12, _⟩ => ⟨S1x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536, .f32⟩
  | .hbm, ⟨29, _⟩ => ⟨S_, .f32⟩
  | .hbm, ⟨30, _⟩ => ⟨S65536, .f32⟩
  | .hbm, ⟨31, _⟩ => ⟨S65536, .f32⟩
  | .hbm, ⟨32, _⟩ => ⟨S65536x1, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S65536x1024, .f32⟩
  | .hbm, ⟨40, _⟩ => ⟨S65536x1024, .f32⟩
  | .hbm, ⟨41, _⟩ => ⟨S65536x256, .f32⟩
  | .hbm, ⟨42, _⟩ => ⟨S16x4096x256, .f32⟩
  | .hbm, ⟨43, _⟩ => ⟨S16x4096x1024, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]

class Facts₀ : Prop where
  shapeCasts_S16x4096x256_S65536x256 : S16x4096x256.ShapeCasts S65536x256
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S1024x256_S1024_d1 : S1024x256.ReducesTo [1] S1024
  transposes_S1024x256_S256x1024_1_0 : S1024x256.Transposes [1, 0] S256x1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  reducesTo_S65536x1024_S65536_d1 : S65536x1024.ReducesTo [1] S65536
  bcast_S_S65536 : S_.BroadcastsInDim S65536 (![] : Fin 0 → Fin S65536.rank)
  shapeCasts_S65536x256_S16x4096x256 : S65536x256.ShapeCasts S16x4096x256
  shapeCasts_S65536x1024_S16x4096x1024 : S65536x1024.ShapeCasts S16x4096x1024
  dot_S65536x256_S256x1024_S65536x1024_1_0_0_1_n_n_wf : DotDims.WF S65536x256 S256x1024 S65536x1024 [1] [0] [0] [1] [] []
  dot_S65536x1024_S1024x256_S65536x256_1_0_0_1_n_n_wf : DotDims.WF S65536x1024 S1024x256 S65536x256 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def dot_S65536x1024_S1024x256_S65536x256_1_0_0_1_n_n : DotDims S65536x1024 S1024x256 S65536x256 where
  lhsContracting := [1]
  rhsContracting := [0]
  lhsNonContracting := [0]
  rhsNonContracting := [1]
  lhsBatch := []
  rhsBatch := []
  wf := dot_S65536x1024_S1024x256_S65536x256_1_0_0_1_n_n_wf

class Facts : Prop extends Facts₀ where

variable [Facts]
-- ==== Proof.Spec.lean ====
/-
  Soft vector quantization, row by row, on the extended reals.

  For a row `h` of the flattened input (65536 rows of 256 numbers) and a codebook `W` of 1024 rows of 256 numbers,
  the distribution over the codebook is the softmax of the negated mean squared distance
      -(|h|² + |w_k|² - 2 h·w_k) / 256,
  and the quantized row is the distribution's combination of the codebook rows. The summand -|h|²/256 is the same
  for every k of a row, so a softmax that subtracts the row's maximum first does not see it: one program computes
  the logits with it (`logitR`), the other without it (`logitK`, where the factor 2/256 is the literal 1/128 and
  -|w_k|²/256 is a precomputed row), and both then subtract the row's maximum, exponentiate, and divide by the
  row's sum. This module only names those functions; what joins the two is proved elsewhere.
-/
import Idealize.ShloMosaic.PureOps.Ideal
import Idealize.ShloMosaic.Lib.ValueIdx

noncomputable section

namespace Cert.VQ

open Idealize.ShloMosaic Idealize.ShloMosaic.ValueIdx

/-- The flattened input: 65536 rows of 256. -/
abbrev SH : Shape := ⟨2, ![65536, 256]⟩
/-- The codebook: 1024 rows of 256. -/
abbrev SW : Shape := ⟨2, ![1024, 256]⟩
/-- A distribution per input row: 65536 rows of 1024. -/
abbrev SQ : Shape := ⟨2, ![65536, 1024]⟩

/-- The squared norm of codebook row `k`. -/
def wsq (W : SW.Idx → EReal) (k : Fin 1024) : EReal := ∑ d : Fin 256, W (ix2 k d) * W (ix2 k d)

/-- The squared norm of input row `n`. -/
def hsq (H : SH.Idx → EReal) (n : Fin 65536) : EReal := ∑ d : Fin 256, H (ix2 n d) * H (ix2 n d)

/-- The inner product of input row `n` and codebook row `k`. -/
def cross (H : SH.Idx → EReal) (W : SW.Idx → EReal) (n : Fin 65536) (k : Fin 1024) : EReal :=
  ∑ d : Fin 256, H (ix2 n d) * W (ix2 k d)

/-- The logit without the row's own squared norm: h·w_k · (1/128) + (-|w_k|² / 256) · 1. -/
def logitK (H : SH.Idx → EReal) (W : SW.Idx → EReal) (n : Fin 65536) (k : Fin 1024) : EReal :=
  cross H W n k * Ideal.ofBits .f32 0x3C000000#32
    + Ideal.div (-(wsq W k)) (Ideal.ofBits .f32 0x43800000#32) * Ideal.ofBits .f32 0x3F800000#32

/-- The logit as the negated mean squared distance: (-((|h|² + |w_k|²) - 2 · h·w_k) / 256) / 1. -/
def logitR (H : SH.Idx → EReal) (W : SW.Idx → EReal) (n : Fin 65536) (k : Fin 1024) : EReal :=
  Ideal.div (Ideal.div (-((hsq H n + wsq W k) - Ideal.ofBits .f32 0x40000000#32 * cross H W n k))
    (Ideal.ofBits .f32 0x43800000#32)) (Ideal.ofBits .f32 0x3F800000#32)

/-- The exponential of a logit less its row's maximum (the maximum folded from -∞). -/
def expK (H : SH.Idx → EReal) (W : SW.Idx → EReal) (n : Fin 65536) (k : Fin 1024) : EReal :=
  Ideal.exp (logitK H W n k
    - (Finset.univ : Finset (Fin 1024)).fold max (Ideal.ofBits .f32 0xFF800000#32) (fun j => logitK H W n j))

/-- The same of the distance logits, whose row maximum is joined with -∞ once more. -/
def expR (H : SH.Idx → EReal) (W : SW.Idx → EReal) (n : Fin 65536) (k : Fin 1024) : EReal :=
  Ideal.exp (logitR H W n k
    - max (Ideal.ofBits .f32 0xFF800000#32)
        ((Finset.univ : Finset (Fin 1024)).fold max (Ideal.ofBits .f32 0xFF800000#32) (fun j => logitR H W n j)))

/-- Each row of exponentials divided by its sum. -/
def softQ (p : Fin 65536 → Fin 1024 → EReal) : SQ.Idx → EReal :=
  fun i => Ideal.div (p (i 0) (i 1)) (∑ k : Fin 1024, p (i 0) k)

/-- Each row of a distribution array combined with the codebook's rows. -/
def quantZ (q : SQ.Idx → EReal) (W : SW.Idx → EReal) : SH.Idx → EReal :=
  fun i => ∑ k : Fin 1024, q (ix2 (i 0) k) * W (ix2 k (i 1))

end Cert.VQ

end
-- ==== Proof.ShiftLaw.lean ====
/-
  The shift law of the softmax, on the extended reals.

  A row of real logits `a` and the same row less a constant `c` give the same differences from their row maxima:
      (a k - c) - max_j (a j - c) = a k - max_j a j,
  because subtracting a real is monotone, so it commutes with the maximum. With real inputs the two logit
  functions of the specification are such a pair of rows (c is the input row's mean squared norm), so the
  exponentials `expR` and `expK` agree.
-/
import proofs.«410244_j82214263980159_3_alg».proof.Proof.Spec
import Mathlib.Data.EReal.Basic
import Mathlib.Data.EReal.Operations
import Mathlib.Data.EReal.Inv
import Mathlib.Data.Finset.Fold
import Mathlib.Order.MinMax
import Mathlib.Algebra.BigOperators.Group.Finset.Basic

noncomputable section

namespace Cert.VQ

open Idealize.ShloMosaic Idealize.ShloMosaic.ValueIdx

/-! ### Sums and maxima of coerced reals -/

/-- A finite sum of coerced reals is the coercion of the real sum. -/
theorem coe_finset_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum, folded from -∞, of a nonempty row of reals is a real. -/
theorem fold_max_coe_real {n : ℕ} (a : Fin (n + 1) → ℝ) :
    ∃ μ : ℝ, (Finset.univ : Finset (Fin (n + 1))).fold max (⊥ : EReal) (fun j => (a j : EReal)) = (μ : EReal) := by
  have hbot : (Finset.univ : Finset (Fin (n + 1))).fold max (⊥ : EReal) (fun j => (a j : EReal)) ≠ ⊥ := by
    intro h
    have h0 : ((a 0 : ℝ) : EReal) ≤ (Finset.univ : Finset (Fin (n + 1))).fold max (⊥ : EReal) (fun j => (a j : EReal)) :=
      (Finset.le_fold_max _).2 (Or.inr ⟨0, Finset.mem_univ _, le_rfl⟩)
    rw [h] at h0
    exact EReal.coe_ne_bot _ (le_bot_iff.1 h0)
  have htop : (Finset.univ : Finset (Fin (n + 1))).fold max (⊥ : EReal) (fun j => (a j : EReal)) ≠ ⊤ :=
    ne_of_lt ((Finset.fold_max_lt _).2 ⟨bot_lt_top, fun j _ => EReal.coe_lt_top _⟩)
  exact ⟨_, (EReal.coe_toReal htop hbot).symm⟩

/-- Subtracting a real commutes with the maximum folded from -∞. -/
theorem fold_max_sub_coe {ι : Type} (s : Finset ι) (f : ι → EReal) (c : ℝ) :
    s.fold max (⊥ : EReal) (fun j => f j - (c : EReal)) = s.fold max (⊥ : EReal) f - (c : EReal) := by
  have hmono : Monotone (fun x : EReal => x - (c : EReal)) := fun x y h => EReal.sub_le_sub h le_rfl
  have h := Finset.fold_hom (op := (max : EReal → EReal → EReal)) (op' := (max : EReal → EReal → EReal))
    (s := s) (b := (⊥ : EReal)) (f := f) (m := fun x : EReal => x - (c : EReal)) (fun x y => hmono.map_max)
  simpa [EReal.bot_sub] using h

/-- The row-level shift law: a row of reals less a constant has the same differences from its maximum,
    and joining that maximum with -∞ once more changes nothing. -/
theorem row_shift {n : ℕ} (a : Fin (n + 1) → ℝ) (c : ℝ) (k : Fin (n + 1)) :
    ((a k - c : ℝ) : EReal)
        - max (⊥ : EReal) ((Finset.univ : Finset (Fin (n + 1))).fold max (⊥ : EReal) (fun j => ((a j - c : ℝ) : EReal)))
      = (a k : EReal) - (Finset.univ : Finset (Fin (n + 1))).fold max (⊥ : EReal) (fun j => (a j : EReal)) := by
  obtain ⟨μ, hμ⟩ := fold_max_coe_real a
  have hshift : (Finset.univ : Finset (Fin (n + 1))).fold max (⊥ : EReal) (fun j => ((a j - c : ℝ) : EReal))
      = ((μ - c : ℝ) : EReal) := by
    have := fold_max_sub_coe (Finset.univ : Finset (Fin (n + 1))) (fun j => (a j : EReal)) c
    simp only [← EReal.coe_sub] at this
    rw [this, hμ, EReal.coe_sub]
  rw [hshift, hμ, max_eq_right bot_le, ← EReal.coe_sub, ← EReal.coe_sub]
  congr 1
  ring

/-! ### The literals the two programs spell -/

/-- The pattern `0x3C000000` denotes 1/128. -/
theorem lit_inv128 : Ideal.ofBits .f32 0x3C000000#32 = ((1 / 128 : ℝ) : EReal) := by
  simp [Ideal.ofBits, Ideal.ieee, -EReal.coe_mul]; norm_num

/-- The pattern `0x43800000` denotes 256. -/
theorem lit_256 : Ideal.ofBits .f32 0x43800000#32 = ((256 : ℝ) : EReal) := by
  simp [Ideal.ofBits, Ideal.ieee, -EReal.coe_mul]; norm_num

/-- The pattern `0x3F800000` denotes 1. -/
theorem lit_one : Ideal.ofBits .f32 0x3F800000#32 = ((1 : ℝ) : EReal) := by
  simp [Ideal.ofBits, Ideal.ieee, -EReal.coe_mul]; norm_num

/-- The pattern `0x40000000` denotes 2. -/
theorem lit_two : Ideal.ofBits .f32 0x40000000#32 = ((2 : ℝ) : EReal) := by
  simp [Ideal.ofBits, Ideal.ieee, -EReal.coe_mul]; norm_num

/-- The pattern `0xFF800000` denotes -∞. -/
theorem lit_neg_inf : Ideal.ofBits .f32 0xFF800000#32 = (⊥ : EReal) := by
  simp [Ideal.ofBits, Ideal.ieee]

/-! ### The specification's sums and logits at real inputs -/

/-- The real inner product of input row `n` and codebook row `k`. -/
def crossR (hr : SH.Idx → ℝ) (wr : SW.Idx → ℝ) (n : Fin 65536) (k : Fin 1024) : ℝ :=
  ∑ d : Fin 256, hr (ix2 n d) * wr (ix2 k d)

/-- The real squared norm of codebook row `k`. -/
def wsqR (wr : SW.Idx → ℝ) (k : Fin 1024) : ℝ := ∑ d : Fin 256, wr (ix2 k d) * wr (ix2 k d)

/-- The real squared norm of input row `n`. -/
def hsqR (hr : SH.Idx → ℝ) (n : Fin 65536) : ℝ := ∑ d : Fin 256, hr (ix2 n d) * hr (ix2 n d)

/-- The real logit without the input row's squared norm. -/
def logitKR (hr : SH.Idx → ℝ) (wr : SW.Idx → ℝ) (n : Fin 65536) (k : Fin 1024) : ℝ :=
  crossR hr wr n k * (1 / 128) + -(wsqR wr k) * (1 / 256) * 1

theorem cross_coe (hr : SH.Idx → ℝ) (wr : SW.Idx → ℝ) (n : Fin 65536) (k : Fin 1024) :
    cross (fun i => (hr i : EReal)) (fun i => (wr i : EReal)) n k = (crossR hr wr n k : EReal) := by
  unfold cross crossR
  simp only [← EReal.coe_mul]
  exact coe_finset_sum _ _

theorem wsq_coe (wr : SW.Idx → ℝ) (k : Fin 1024) :
    wsq (fun i => (wr i : EReal)) k = (wsqR wr k : EReal) := by
  unfold wsq wsqR
  simp only [← EReal.coe_mul]
  exact coe_finset_sum _ _

theorem hsq_coe (hr : SH.Idx → ℝ) (n : Fin 65536) :
    hsq (fun i => (hr i : EReal)) n = (hsqR hr n : EReal) := by
  unfold hsq hsqR
  simp only [← EReal.coe_mul]
  exact coe_finset_sum _ _

/-- At real inputs the logit without the row's squared norm is a real. -/
theorem logitK_coe (hr : SH.Idx → ℝ) (wr : SW.Idx → ℝ) (n : Fin 65536) (k : Fin 1024) :
    logitK (fun i => (hr i : EReal)) (fun i => (wr i : EReal)) n k = (logitKR hr wr n k : EReal) := by
  unfold logitK logitKR
  rw [cross_coe, wsq_coe, lit_inv128, lit_256, lit_one, Ideal.div_coe (by norm_num : (256 : ℝ) ≠ 0)]
  simp only [← EReal.coe_neg, ← EReal.coe_mul, ← EReal.coe_add]

/-- At real inputs the distance logit is the other logit less the input row's mean squared norm. -/
theorem logitR_coe (hr : SH.Idx → ℝ) (wr : SW.Idx → ℝ) (n : Fin 65536) (k : Fin 1024) :
    logitR (fun i => (hr i : EReal)) (fun i => (wr i : EReal)) n k
      = ((logitKR hr wr n k - hsqR hr n / 256 : ℝ) : EReal) := by
  unfold logitR logitKR
  rw [cross_coe, wsq_coe, hsq_coe, lit_two, lit_256, lit_one,
    Ideal.div_coe (by norm_num : (256 : ℝ) ≠ 0), Ideal.div_coe (by norm_num : (1 : ℝ) ≠ 0)]
  simp only [← EReal.coe_neg, ← EReal.coe_mul, ← EReal.coe_add, ← EReal.coe_sub]
  congr 1
  ring

/-! ### The two exponentials agree -/

/-- With real inputs the exponentials of the distance logits less their row maximum are those of the logits
    without the input row's squared norm: the rows differ by a constant, which the shift law removes. -/
theorem expR_eq_expK (H : SH.Idx → EReal) (W : SW.Idx → EReal)
    (hH : ∀ i, ∃ r : ℝ, H i = (r : EReal)) (hW : ∀ i, ∃ r : ℝ, W i = (r : EReal)) :
    expR H W = expK H W := by
  choose hr hhr using hH
  choose wr hwr using hW
  obtain rfl : H = fun i => (hr i : EReal) := funext hhr
  obtain rfl : W = fun i => (wr i : EReal) := funext hwr
  funext n k
  unfold expR expK
  simp only [lit_neg_inf, logitK_coe, logitR_coe]
  exact congrArg Ideal.exp (row_shift (n := 1023) (fun j => logitKR hr wr n j) (hsqR hr n / 256) k)

end Cert.VQ

end
-- ==== Proof.FiniteInputs.lean ====
/-
  Finite inputs are real inputs.

  The precondition compares the absolute value of every entry of the two inputs with +∞ and takes the
  conjunction of all the comparisons. If the conjunction holds, every entry's absolute value max x (-x) is
  strictly below +∞; on the extended reals that excludes both infinities, so every entry is a real number.
-/
import proofs.«410244_j82214263980159_3_alg».proof.Pre_finite_inputs
import proofs.«410244_j82214263980159_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws
import Mathlib.Data.EReal.Basic
import Mathlib.Data.EReal.Operations

noncomputable section

namespace Cert.VQ

open Idealize.ShloMosaic Idealize.ShloMosaic.ValueIdx

/-- The result of a reduction over all axes has one index. -/
instance : Subsingleton Cert.Pre_finite_inputs.S_.Idx := ⟨fun a b => funext fun d => d.elim0⟩

/-- The pattern `0x7F800000` denotes +∞. -/
theorem lit_pos_inf : Ideal.ofBits .f32 0x7F800000#32 = (⊤ : EReal) := by
  simp [Ideal.ofBits, Ideal.ieee]

/-- An extended real whose absolute value is strictly below +∞ is a real. -/
theorem real_of_abs_lt_top (x : EReal) (h : max x (-x) < ⊤) : ∃ r : ℝ, x = (r : EReal) := by
  induction x using EReal.rec with
  | bot => simp at h
  | top => simp at h
  | coe r => exact ⟨r, rfl⟩

/-- One comparison of the precondition, read at an index: the entry there is a real. -/
theorem real_of_cmp {S : Shape} (x : FVec Ideal S .f32)
    (hb : Cert.Pre_finite_inputs.S_.BroadcastsInDim S (![] : Fin 0 → Fin S.rank)) (i : S.Idx)
    (h : cmpf .olt (Host.absf x)
      (broadcastInDim S ![] hb (constant (F := Ideal) Cert.Pre_finite_inputs.S_ .f32 0x7F800000#32)) i = 1#1) :
    ∃ r : ℝ, x i = (r : EReal) := by
  have h' : Ideal.cmp .olt (max (x i) (-(x i))) (Ideal.ofBits .f32 0x7F800000#32) = 1#1 := h
  rw [lit_pos_inf] at h'
  apply real_of_abs_lt_top
  by_contra hn
  simp [Ideal.cmp, hn] at h'

/-- If the precondition holds, every entry of both inputs is a real number. -/
theorem real_of_pre (x : FVec Ideal Cert.Pre_finite_inputs.S16x4096x256 .f32)
    (w : FVec Ideal Cert.Pre_finite_inputs.S1024x256 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ValueIdx.ix0
  dsimp only [Cert.Pre_finite_inputs.fn] at h0
  obtain ⟨hx, hw⟩ := IntOp.andi_eq_one.1 h0
  exact ⟨fun i => real_of_cmp x _ i (Host.reduce_andi_all _ _ _ _ _ hx i),
    fun i => real_of_cmp w _ i (Host.reduce_andi_all _ _ _ _ _ hw i)⟩

end Cert.VQ

end
-- ==== Proof.RefStages.lean ====
import proofs.«410244_j82214263980159_3_alg».proof.Proof.Gen.ReferenceIdeal.Run
import proofs.«410244_j82214263980159_3_alg».proof.Proof.Gen.ReferenceIdeal.Read
import proofs.«410244_j82214263980159_3_alg».proof.Proof.Spec
import Idealize.ShloMosaic.PureOps.Ideal
import Idealize.ShloMosaic.PureOps.Ideal.Laws
import Idealize.ShloMosaic.PureOps.Reduce
import Idealize.ShloMosaic.Lib.ValueIdx

/-!
  The reference program, stage by stage, as the row-by-row functions on the extended reals.

  The program flattens the input to 65536 rows h of 256 numbers, forms for every row and every codebook row w_k
  the logit  (-((|h|² + |w_k|²) - 2 · h·w_k) / 256) / 1,  subtracts the row's maximum (a fold of max from -∞, joined
  with -∞ once more), exponentiates, divides by the row's sum, and combines the codebook rows with the quotients.
  Each lemma below reads one group of operations at an index; the last two say that the two results are the
  softmax quotient and its combination with the codebook.
-/

noncomputable section

namespace Cert.VQ.RefSide

open Cert.ReferenceIdeal Cert.ReferenceIdeal.Gen Cert.ReferenceIdeal.Read Idealize.ShloMosaic Idealize.ShloMosaic.ValueIdx

/-- The flattened input's squared row norms: the sum from 0 of the squares along a row. -/
theorem hsq_at (x : (⟨S16x4096x256, .f32⟩ : BufTy).Contents (Elt Ideal)) (j : S65536.Idx) :
    val_main_v2 (F := Ideal) x j = hsq (val_main_v0 (F := Ideal) x) (j 0) := by
  rw [val_main_v2_apply, val_main_cst_apply, Ideal.ofBits_def, Ideal.ofBits_zero_f32, zero_add]
  unfold hsq
  refine Finset.sum_congr rfl fun d _ => ?_
  rw [val_main_v1_apply, Ideal.mulf_def]
  have e : idx_main_v2 j d = ix2 (j 0) d :=
    funext fun a => Fin.ext (by match a with | ⟨0, _⟩ => rfl | ⟨1, _⟩ => rfl)
  rw [e]
  rfl

/-- The codebook's squared row norms. -/
theorem wsq_at (w : (⟨S1024x256, .f32⟩ : BufTy).Contents (Elt Ideal)) (j : S1024.Idx) :
    val_main_v5 (F := Ideal) w j = wsq w (j 0) := by
  rw [val_main_v5_apply, val_main_cst_0_apply, Ideal.ofBits_def, Ideal.ofBits_zero_f32, zero_add]
  unfold wsq
  refine Finset.sum_congr rfl fun d _ => ?_
  rw [val_main_v4_apply, Ideal.mulf_def]
  have e : idx_main_v5 j d = ix2 (j 0) d :=
    funext fun a => Fin.ext (by match a with | ⟨0, _⟩ => rfl | ⟨1, _⟩ => rfl)
  rw [e]
  rfl

/-- The product of the flattened input with the transposed codebook: the inner product of a row with a codebook row. -/
theorem cross_at (x : (⟨S16x4096x256, .f32⟩ : BufTy).Contents (Elt Ideal))
    (w : (⟨S1024x256, .f32⟩ : BufTy).Contents (Elt Ideal)) (i : S65536x1024.Idx) :
    val_main_v7 (F := Ideal) x w i = cross (val_main_v0 (F := Ideal) x) w (i 0) (i 1) := by
  rw [val_main_v7_apply]
  unfold cross
  refine Finset.sum_congr rfl fun d _ => ?_
  rw [val_main_v6_apply]
  have el : lidx_main_v7 i d = ix2 (i 0) d :=
    funext fun a => Fin.ext (by match a with | ⟨0, _⟩ => rfl | ⟨1, _⟩ => rfl)
  have er : idx_main_v6 (ridx_main_v7 i d) = ix2 (i 1) d :=
    funext fun a => Fin.ext (by match a with | ⟨0, _⟩ => rfl | ⟨1, _⟩ => rfl)
  rw [el, er]
  rfl

/-- The logits: the negated mean squared distance of a row to a codebook row, divided by one. -/
theorem logit_at (x : (⟨S16x4096x256, .f32⟩ : BufTy).Contents (Elt Ideal))
    (w : (⟨S1024x256, .f32⟩ : BufTy).Contents (Elt Ideal)) (i : S65536x1024.Idx) :
    val_main_v19 (F := Ideal) x w i = logitR (val_main_v0 (F := Ideal) x) w (i 0) (i 1) := by
  rw [val_main_v19_apply, val_main_v17_apply, val_main_v15_apply, val_main_v14_apply, val_main_v11_apply,
    val_main_v13_apply, val_main_v9_apply, val_main_v10_apply, val_main_v3_apply, val_main_v8_apply,
    val_main_v12_apply, val_main_v16_apply, val_main_v18_apply, val_main_cst_1_apply, val_main_cst_2_apply,
    val_main_cst_3_apply, hsq_at, wsq_at, cross_at]
  rfl

/-- The logits' shape drops its second axis to the rows' shape. -/
theorem reduces_row : S65536x1024.Reduces [1] S65536 := by decide

/-- The row maximum: the fold of max from -∞ over the row's logits. -/
theorem rowmax_at (x : (⟨S16x4096x256, .f32⟩ : BufTy).Contents (Elt Ideal))
    (w : (⟨S1024x256, .f32⟩ : BufTy).Contents (Elt Ideal)) (j : S65536.Idx) :
    val_main_v20 (F := Ideal) x w j
      = (Finset.univ : Finset (Fin 1024)).fold max (Ideal.ofBits .f32 0xFF800000#32)
          (fun k => logitR (val_main_v0 (F := Ideal) x) w (j 0) k) := by
  unfold val_main_v20
  rw [Host.reduce_eq_fold_single FloatOps.maximumf _ _ reducesTo_S65536x1024_S65536_d1 reduces_row h_S_ j]
  have e : (val_main_v19 (F := Ideal) x w ∘ reduces_row.lift j)
      = fun k => logitR (val_main_v0 (F := Ideal) x) w (j 0) k := by
    funext k
    show val_main_v19 (F := Ideal) x w (reduces_row.lift j k) = _
    rw [logit_at]
    have e0 : reduces_row.lift j k 0 = j 0 := Fin.ext rfl
    have e1 : reduces_row.lift j k 1 = k := Fin.ext rfl
    rw [e0, e1]
  rw [e]
  rfl

/-- The subtracted maximum, joined with -∞ once more and broadcast back along the row. -/
theorem shift_at (x : (⟨S16x4096x256, .f32⟩ : BufTy).Contents (Elt Ideal))
    (w : (⟨S1024x256, .f32⟩ : BufTy).Contents (Elt Ideal)) (i : S65536x1024.Idx) :
    val_main_v24 (F := Ideal) x w i
      = max (Ideal.ofBits .f32 0xFF800000#32)
          ((Finset.univ : Finset (Fin 1024)).fold max (Ideal.ofBits .f32 0xFF800000#32)
            (fun k => logitR (val_main_v0 (F := Ideal) x) w (i 0) k)) := by
  rw [val_main_v24_apply, val_main_v23_apply, val_main_v22_apply, val_main_v21_apply, val_main_cst_5_apply,
    rowmax_at]
  rfl

/-- The exponentials of the shifted logits. -/
theorem exp_at (x : (⟨S16x4096x256, .f32⟩ : BufTy).Contents (Elt Ideal))
    (w : (⟨S1024x256, .f32⟩ : BufTy).Contents (Elt Ideal)) (i : S65536x1024.Idx) :
    val_main_v26 (F := Ideal) x w i = expR (val_main_v0 (F := Ideal) x) w (i 0) (i 1) := by
  rw [val_main_v26_apply, val_main_v25_apply, logit_at, shift_at]
  rfl

/-- The row sums of the exponentials: the sum from 0 along a row. -/
theorem rowsum_at (x : (⟨S16x4096x256, .f32⟩ : BufTy).Contents (Elt Ideal))
    (w : (⟨S1024x256, .f32⟩ : BufTy).Contents (Elt Ideal)) (j : S65536.Idx) :
    val_main_v27 (F := Ideal) x w j = ∑ k : Fin 1024, expR (val_main_v0 (F := Ideal) x) w (j 0) k := by
  rw [val_main_v27_apply, val_main_cst_6_apply, Ideal.ofBits_def, Ideal.ofBits_zero_f32, zero_add]
  refine Finset.sum_congr rfl fun k _ => ?_
  rw [exp_at]
  rfl

/-- The distribution: each exponential divided by its row's sum. -/
theorem q_eq (x : (⟨Cert.ReferenceIdeal.S16x4096x256, .f32⟩ : BufTy).Contents (Elt Ideal))
    (w : (⟨Cert.ReferenceIdeal.S1024x256, .f32⟩ : BufTy).Contents (Elt Ideal)) :
    Cert.ReferenceIdeal.Read.val_main_v30 (F := Ideal) x w
      = Cert.VQ.softQ (Cert.VQ.expR (Cert.ReferenceIdeal.Read.val_main_v0 (F := Ideal) x) w) := by
  funext i
  rw [val_main_v30_apply, val_main_v29_apply, val_main_v28_apply, rowsum_at, exp_at]
  rfl

/-- The quantized rows: the distribution's combination of the codebook rows. -/
theorem z_eq (x : (⟨Cert.ReferenceIdeal.S16x4096x256, .f32⟩ : BufTy).Contents (Elt Ideal))
    (w : (⟨Cert.ReferenceIdeal.S1024x256, .f32⟩ : BufTy).Contents (Elt Ideal)) :
    Cert.ReferenceIdeal.Read.val_main_v31 (F := Ideal) x w
      = Cert.VQ.quantZ (Cert.VQ.softQ (Cert.VQ.expR (Cert.ReferenceIdeal.Read.val_main_v0 (F := Ideal) x) w)) w := by
  funext i
  rw [val_main_v31_apply, q_eq]
  unfold quantZ
  refine Finset.sum_congr rfl fun k _ => ?_
  have el : lidx_main_v31 i k = ix2 (i 0) k :=
    funext fun a => Fin.ext (by match a with | ⟨0, _⟩ => rfl | ⟨1, _⟩ => rfl)
  have er : ridx_main_v31 i k = ix2 k (i 1) :=
    funext fun a => Fin.ext (by match a with | ⟨0, _⟩ => rfl | ⟨1, _⟩ => rfl)
  rw [el, er]
  rfl

end Cert.VQ.RefSide

end
-- ==== Proof.KernelRow.lean ====
/-
  The kernel body at one element.

  One grid point works on a block of 1024 input rows `a` (1024 × 256), the whole codebook `b` (1024 × 256) and a
  row `β` of 1024 offsets. Its first result, at row r and column k, is
      exp(ℓ r k - max_j ℓ r j) / ∑_j exp(ℓ r j - max_j' ℓ r j'),    ℓ r k = (∑_d a r d · b k d) · (1/128) + β k,
  and its second, at row r and column d, is the first result's row r combined with the codebook's column d.
  Every step of the body is read at an index here: the two contractions as sums over their one contracted
  coordinate, the row maximum as a fold of max from -∞ over the row, the row sum as a sum over the row, and the
  broadcasts of a row along the rows and of a column along the columns as reads of that row and column.
-/
import proofs.«410244_j82214263980159_3_alg».proof.Proof.Gen.KernelIdeal.Skeleton
import proofs.«410244_j82214263980159_3_alg».proof.Proof.Spec
import Idealize.ShloMosaic.Lib.ValueIdx
import Idealize.ShloMosaic.Lib.Pipeline.Value
import Idealize.ShloMosaic.PureOps.Ideal.Laws

noncomputable section

namespace Cert.VQ.Body

open Cert.KernelIdeal Cert.KernelIdeal.Gen Idealize.ShloMosaic Idealize.ShloMosaic.ValueIdx

/-! ## The two contractions' operand indices, axis by axis -/

theorem lhs_cross_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_cross_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_cross_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_cross_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

theorem lhs_comb_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_comb_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_comb_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_comb_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- Rows against rows: the product of a row block with the codebook, contracted over the 256 coordinates of both. -/
theorem cross_apply (a : FVec Ideal S1024x256 .bf16) (b : FVec Ideal S1024x256 .bf16) (r k : Fin 1024) :
    matmul dot_S1024x256_S1024x256_S1024x1024_1_1_0_0_n_n none a b (constant S1024x1024 .f32 0x00000000#32) (ix2 r k)
      = ∑ d : Fin 256, a (ix2 r d) * b (ix2 k d) := by
  simp only [matmul]
  rw [Ideal.matmul_constant_zero_apply, ← Equiv.sum_comp (contrEquiv1 dot_S1024x256_S1024x256_S1024x1024_1_1_0_0_n_n 256 rfl rfl).symm]
  refine Finset.sum_congr rfl fun d _ => ?_
  have hk := contrEquiv1_symm_val dot_S1024x256_S1024x256_S1024x1024_1_1_0_0_n_n 256 rfl rfl d
  have el : dot_S1024x256_S1024x256_S1024x1024_1_1_0_0_n_n.lhsIdx (ix2 r k) ((contrEquiv1 dot_S1024x256_S1024x256_S1024x1024_1_1_0_0_n_n 256 rfl rfl).symm d) = ix2 r d := funext fun x => Fin.ext (by
    match x with
    | ⟨0, _⟩ => exact lhs_cross_0 _ _
    | ⟨1, _⟩ => exact (lhs_cross_1 _ _).trans hk)
  have er : dot_S1024x256_S1024x256_S1024x1024_1_1_0_0_n_n.rhsIdx (ix2 r k) ((contrEquiv1 dot_S1024x256_S1024x256_S1024x1024_1_1_0_0_n_n 256 rfl rfl).symm d) = ix2 k d := funext fun x => Fin.ext (by
    match x with
    | ⟨0, _⟩ => exact rhs_cross_0 _ _
    | ⟨1, _⟩ => exact (rhs_cross_1 _ _).trans hk)
  rw [el, er]

/-- Rows against columns: a block of distributions combined with the codebook, contracted over the 1024 codes. -/
theorem comb_apply (q : FVec Ideal S1024x1024 .bf16) (b : FVec Ideal S1024x256 .bf16) (r : Fin 1024) (d : Fin 256) :
    matmul dot_S1024x1024_S1024x256_S1024x256_1_0_0_1_n_n none q b (constant S1024x256 .f32 0x00000000#32) (ix2 r d)
      = ∑ k : Fin 1024, q (ix2 r k) * b (ix2 k d) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r d) ((contrEquiv1 dot_S1024x1024_S1024x256_S1024x256_1_0_0_1_n_n 1024 rfl rfl).symm k) = ix2 r k := funext fun x => Fin.ext (by
    match x with
    | ⟨0, _⟩ => exact lhs_comb_0 _ _
    | ⟨1, _⟩ => exact (lhs_comb_1 _ _).trans hk)
  have er : dot_S1024x1024_S1024x256_S1024x256_1_0_0_1_n_n.rhsIdx (ix2 r d) ((contrEquiv1 dot_S1024x1024_S1024x256_S1024x256_1_0_0_1_n_n 1024 rfl rfl).symm k) = ix2 k d := funext fun x => Fin.ext (by
    match x with
    | ⟨0, _⟩ => exact (rhs_comb_0 _ _).trans hk
    | ⟨1, _⟩ => exact rhs_comb_1 _ _)
  rw [el, er]

/-! ## The layout steps at an index -/

/-- A row of 1024 repeated down 1024 rows reads that row. -/
theorem bcast_row {α : Type} (v : S1x1024.Idx → α) (r k : Fin 1024) :
    broadcastTo S1024x1024 v broadcasts_S1x1024_S1024x1024 (ix2 r k) = v (ix2 (0 : Fin 1) k) :=
  broadcastTo_apply v broadcasts_S1x1024_S1024x1024 (ix2 r k) (ix2 (0 : Fin 1) k) (fun x => match x with
    | ⟨0, _⟩ => by show 0 = if (1 : Nat) = 1 then 0 else _; rw [if_pos rfl]
    | ⟨1, _⟩ => by show k.val = if (1024 : Nat) = 1 then 0 else k.val; rw [if_neg (by decide)])

/-- A column of 1024 repeated along 1024 columns reads that column. -/
theorem bcast_col {α : Type} (v : S1024x1.Idx → α) (r k : Fin 1024) :
    broadcastTo S1024x1024 v broadcasts_S1024x1_S1024x1024 (ix2 r k) = v (ix2 r (0 : Fin 1)) :=
  broadcastTo_apply v broadcasts_S1024x1_S1024x1024 (ix2 r k) (ix2 r (0 : Fin 1)) (fun x => match x with
    | ⟨0, _⟩ => by show r.val = if (1024 : Nat) = 1 then 0 else r.val; rw [if_neg (by decide)]
    | ⟨1, _⟩ => by show 0 = if (1 : Nat) = 1 then 0 else _; rw [if_pos rfl])

/-- A vector of 1024 stood up as a column reads the vector. -/
theorem col_cast {α : Type} (v : S1024.Idx → α) (r : Fin 1024) :
    shapeCast S1024x1 v shapeCasts_S1024_S1024x1 (ix2 r (0 : Fin 1)) = v (ix1 r) :=
  shapeCast_apply v shapeCasts_S1024_S1024x1 (ix2 r (0 : Fin 1)) (ix1 r) (by
    rw [Shape.rowMajor_val_one, Shape.rowMajor_val_two]
    show r.val = r.val * 1 + 0
    omega)

/-! ## A row's maximum and a row's sum -/

/-- The maximum over axis 1 of a 1024 × 1024 array at row `r`: the fold of max from -∞ over the row. -/
theorem rowmax_apply (L : FVec Ideal S1024x1024 .f32) (r : Fin 1024) :
    multiReduction .maximumf [1] S1024 L 0xFF800000#32 reduces_S1024x1024_S1024 (.inl rfl) rfl (ix1 r)
      = (Finset.univ : Finset (Fin 1024)).fold max (Ideal.ofBits .f32 0xFF800000#32) (fun j => L (ix2 r j)) := by
  refine (Ideal.multiReduction_maximumf_single L 0xFF800000#32 reduces_S1024x1024_S1024 (.inl rfl) rfl (ix1 r)).trans ?_
  show (Finset.univ : Finset (Fin 1024)).fold max (Ideal.ofBits .f32 0xFF800000#32) _ = _
  refine congrArg (fun f => (Finset.univ : Finset (Fin 1024)).fold max (Ideal.ofBits .f32 0xFF800000#32) f) ?_
  exact funext fun j => congrArg L (funext fun x => Fin.ext (by match x with | ⟨0, _⟩ => rfl | ⟨1, _⟩ => rfl))

/-- The sum over axis 1 of a 1024 × 1024 array at row `r`: the sum over the row. -/
theorem rowsum_apply (P : FVec Ideal S1024x1024 .f32) (r : Fin 1024) :
    multiReduction .add [1] S1024 P 0x00000000#32 reduces_S1024x1024_S1024 (.inl rfl) rfl (ix1 r)
      = ∑ j : Fin 1024, P (ix2 r j) := by
  refine (Ideal.multiReduction_add_single P 0x00000000#32 reduces_S1024x1024_S1024 (.inl rfl) rfl (ix1 r)).trans ?_
  exact Finset.sum_congr rfl fun j _ => congrArg P (funext fun x => Fin.ext (by match x with | ⟨0, _⟩ => rfl | ⟨1, _⟩ => rfl))

/-! ## The softmax of a block of logits -/

/-- The exponential of an entry less its row's maximum. -/
def rowExp (L : FVec Ideal S1024x1024 .f32) (r k : Fin 1024) : EReal :=
  Ideal.exp (L (ix2 r k)
    - (Finset.univ : Finset (Fin 1024)).fold max (Ideal.ofBits .f32 0xFF800000#32) (fun j => L (ix2 r j)))

/-- Subtracting the row maximum, kept as a column and repeated along the row, and exponentiating. -/
theorem shifted_apply (L : FVec Ideal S1024x1024 .f32) (r k : Fin 1024) :
    exp (subf L (broadcastTo S1024x1024 (shapeCast S1024x1 (multiReduction .maximumf [1] S1024 L 0xFF800000#32
        reduces_S1024x1024_S1024 (.inl rfl) rfl) shapeCasts_S1024_S1024x1) broadcasts_S1024x1_S1024x1024)) (ix2 r k)
      = rowExp L r k := by
  show Ideal.exp (L (ix2 r k) - broadcastTo S1024x1024 _ broadcasts_S1024x1_S1024x1024 (ix2 r k)) = _
  rw [bcast_col, col_cast, rowmax_apply]
  rfl

/-- Dividing by the row's sum, kept as a column and repeated along the row. -/
theorem normalized_apply (P : FVec Ideal S1024x1024 .f32) (r k : Fin 1024) :
    divf P (broadcastTo S1024x1024 (shapeCast S1024x1 (multiReduction .add [1] S1024 P 0x00000000#32
        reduces_S1024x1024_S1024 (.inl rfl) rfl) shapeCasts_S1024_S1024x1) broadcasts_S1024x1_S1024x1024) (ix2 r k)
      = Ideal.div (P (ix2 r k)) (∑ j : Fin 1024, P (ix2 r j)) := by
  show Ideal.div (P (ix2 r k)) (broadcastTo S1024x1024 _ broadcasts_S1024x1_S1024x1024 (ix2 r k)) = _
  rw [bcast_col, col_cast, rowsum_apply]

/-! ## The block's logits -/

/-- The logit of row `r` against code `k`: the inner product scaled by 1/128, plus the code's offset. -/
def blkLogit (a : FVec Ideal S1024x256 .f32) (b : FVec Ideal S1024x256 .bf16) (β : FVec Ideal S1x1024 .f32) (r k : Fin 1024) : EReal :=
  (∑ d : Fin 256, a (ix2 r d) * b (ix2 k d)) * Ideal.ofBits .f32 0x3C000000#32 + β (ix2 (0 : Fin 1) k)

/-- The body's logits as one array. -/
def logitsVec (a : FVec Ideal S1024x256 .f32) (b : FVec Ideal S1024x256 .bf16) (β : FVec Ideal S1x1024 .f32) : FVec Ideal S1024x1024 .f32 :=
  addf (mulf (matmul dot_S1024x256_S1024x256_S1024x1024_1_1_0_0_n_n none
      (truncf .bf16 (shapeCast S1024x256 a shapeCasts_S1024x256_S1024x256) bitsLt_bf16_f32)
      (shapeCast S1024x256 b shapeCasts_S1024x256_S1024x256) (constant S1024x1024 .f32 0x00000000#32))
    (broadcast S1024x1024 (Scalar.ofBits .f32 0x3C000000#32)))
    (broadcastTo S1024x1024 (shapeCast S1x1024 β shapeCasts_S1x1024_S1x1024) broadcasts_S1x1024_S1024x1024)

theorem logitsVec_apply (a : FVec Ideal S1024x256 .f32) (b : FVec Ideal S1024x256 .bf16) (β : FVec Ideal S1x1024 .f32) (r k : Fin 1024) :
    logitsVec a b β (ix2 r k) = blkLogit a b β r k := by
  unfold logitsVec blkLogit
  show matmul dot_S1024x256_S1024x256_S1024x1024_1_1_0_0_n_n none _ _ (constant S1024x1024 .f32 0x00000000#32) (ix2 r k) * Ideal.ofBits .f32 0x3C000000#32
      + broadcastTo S1024x1024 _ broadcasts_S1x1024_S1024x1024 (ix2 r k) = _
  rw [cross_apply, bcast_row, shapeCast_self, shapeCast_self, shapeCast_self]
  rfl

/-- The exponentials of a block's rows, each less its row's maximum. -/
def blkExp (a : FVec Ideal S1024x256 .f32) (b : FVec Ideal S1024x256 .bf16) (β : FVec Ideal S1x1024 .f32) (r k : Fin 1024) : EReal :=
  Ideal.exp (blkLogit a b β r k
    - (Finset.univ : Finset (Fin 1024)).fold max (Ideal.ofBits .f32 0xFF800000#32) (fun j => blkLogit a b β r j))

/-- The distribution the body stores, at row `r` and code `k`. -/
def blkQ (a : FVec Ideal S1024x256 .f32) (b : FVec Ideal S1024x256 .bf16) (β : FVec Ideal S1x1024 .f32) (r k : Fin 1024) : EReal :=
  Ideal.div (blkExp a b β r k) (∑ j : Fin 1024, blkExp a b β r j)

theorem rowExp_logitsVec (a : FVec Ideal S1024x256 .f32) (b : FVec Ideal S1024x256 .bf16) (β : FVec Ideal S1x1024 .f32) (r k : Fin 1024) :
    rowExp (logitsVec a b β) r k = blkExp a b β r k := by
  unfold rowExp blkExp
  simp only [logitsVec_apply]

/-- The first store's value at an element. -/
theorem pay2_apply (a : FVec Ideal S1024x256 .f32) (b : FVec Ideal S1024x256 .bf16) (β : FVec Ideal S1x1024 .f32) (r k : Fin 1024) :
    k0_pay2 (F := Ideal) a b β (ix2 r k) = blkQ a b β r k := by
  have e : k0_pay2 (F := Ideal) a b β
      = divf (exp (subf (logitsVec a b β) (broadcastTo S1024x1024 (shapeCast S1024x1 (multiReduction .maximumf [1] S1024 (logitsVec a b β) 0xFF800000#32
            reduces_S1024x1024_S1024 (.inl rfl) rfl) shapeCasts_S1024_S1024x1) broadcasts_S1024x1_S1024x1024)))
          (broadcastTo S1024x1024 (shapeCast S1024x1 (multiReduction .add [1] S1024
            (exp (subf (logitsVec a b β) (broadcastTo S1024x1024 (shapeCast S1024x1 (multiReduction .maximumf [1] S1024 (logitsVec a b β) 0xFF800000#32
              reduces_S1024x1024_S1024 (.inl rfl) rfl) shapeCasts_S1024_S1024x1) broadcasts_S1024x1_S1024x1024))) 0x00000000#32
            reduces_S1024x1024_S1024 (.inl rfl) rfl) shapeCasts_S1024_S1024x1) broadcasts_S1024x1_S1024x1024) := rfl
  rw [e, normalized_apply, shifted_apply, rowExp_logitsVec]
  unfold blkQ
  exact congrArg (Ideal.div (blkExp a b β r k))
    (Finset.sum_congr rfl fun j _ => (shifted_apply _ r j).trans (rowExp_logitsVec a b β r j))

/-- The second store's value at an element: the distribution's row combined with the codebook's column. -/
theorem pay3_apply (a : FVec Ideal S1024x256 .f32) (b : FVec Ideal S1024x256 .bf16) (β : FVec Ideal S1x1024 .f32) (r : Fin 1024) (d : Fin 256) :
    k0_pay3 (F := Ideal) a b β (ix2 r d) = ∑ k : Fin 1024, blkQ a b β r k * b (ix2 k d) := by
  have e : k0_pay3 (F := Ideal) a b β
      = matmul dot_S1024x1024_S1024x256_S1024x256_1_0_0_1_n_n none (truncf .bf16 (k0_pay2 (F := Ideal) a b β) bitsLt_bf16_f32)
          (shapeCast S1024x256 b shapeCasts_S1024x256_S1024x256) (constant S1024x256 .f32 0x00000000#32) := rfl
  rw [e, comb_apply, shapeCast_self]
  refine Finset.sum_congr rfl fun k _ => ?_
  show k0_pay2 (F := Ideal) a b β (ix2 r k) * b (ix2 k d) = _
  rw [pay2_apply]

end Cert.VQ.Body

end
-- ==== Proof.KernelBlocks.lean ====
/-
  From the body's blocks to the whole arrays.

  The grid has 64 points; point t works on input rows 1024·t … 1024·t + 1023, sees the whole codebook and the
  whole row of offsets, and writes back rows 1024·t … 1024·t + 1023 of the two result arrays. So what every point
  writes back is its block of ONE function of the arrays the region starts from — row n of the distribution array
  depends on row n of the input only — and the 64 blocks tile both result arrays: after the last point the arrays
  hold that function.
-/
import proofs.«410244_j82214263980159_3_alg».proof.Proof.Gen.KernelIdeal.Frame
import proofs.«410244_j82214263980159_3_alg».proof.Proof.KernelRow
import proofs.«410244_j82214263980159_3_alg».proof.Proof.Spec
import Idealize.ShloMosaic.Lib.ValueIdx
import Idealize.ShloMosaic.Lib.Pipeline.Value

set_option maxRecDepth 16384

noncomputable section

namespace Cert.VQ.Blocks

open Cert.KernelIdeal Cert.KernelIdeal.Gen Idealize.ShloMosaic Idealize.ShloMosaic.ValueIdx Idealize.ShloMosaic.TcCoe
open Idealize.ShloMosaic.Pipeline (Dat)
open Cert.VQ.Body

/-! ## The result arrays as functions of the arrays the region starts from -/

/-- The logit of input row `n` against code `k`, with the codes' offsets a given row `B`. -/
def logitB (H : SH.Idx → EReal) (W : SW.Idx → EReal) (B : S1x1024.Idx → EReal) (n : Fin 65536) (k : Fin 1024) : EReal :=
  (∑ d : Fin 256, H (ix2 n d) * W (ix2 k d)) * Ideal.ofBits .f32 0x3C000000#32 + B (ix2 (0 : Fin 1) k)

/-- Its exponential less the row's maximum. -/
def expB (H : SH.Idx → EReal) (W : SW.Idx → EReal) (B : S1x1024.Idx → EReal) (n : Fin 65536) (k : Fin 1024) : EReal :=
  Ideal.exp (logitB H W B n k
    - (Finset.univ : Finset (Fin 1024)).fold max (Ideal.ofBits .f32 0xFF800000#32) (fun j => logitB H W B n j))

/-- A block's distribution at its row `r` is the array's at row `n`, when the block's row `r` is the array's row `n`
    and the block sees the whole codebook and the whole row of offsets. -/
theorem blkQ_eq (a : FVec Ideal S1024x256 .f32) (b : FVec Ideal S1024x256 .bf16) (β : FVec Ideal S1x1024 .f32)
    (H : SH.Idx → EReal) (W : SW.Idx → EReal) (B : S1x1024.Idx → EReal) (r : Fin 1024) (n : Fin 65536)
    (ha : ∀ d : Fin 256, a (ix2 r d) = H (ix2 n d)) (hb : ∀ (k : Fin 1024) (d : Fin 256), b (ix2 k d) = W (ix2 k d))
    (hβ : ∀ k : Fin 1024, β (ix2 (0 : Fin 1) k) = B (ix2 (0 : Fin 1) k)) (k : Fin 1024) :
    blkQ a b β r k = Ideal.div (expB H W B n k) (∑ j : Fin 1024, expB H W B n j) := by
  have hl : ∀ j : Fin 1024, blkLogit a b β r j = logitB H W B n j := fun j => by
    unfold blkLogit logitB
    rw [hβ j]
    exact congrArg (fun s => s * Ideal.ofBits .f32 0x3C000000#32 + B (ix2 (0 : Fin 1) j))
      (Finset.sum_congr rfl fun d _ => by rw [ha d, hb j d])
  have he : ∀ j : Fin 1024, blkExp a b β r j = expB H W B n j := fun j => by
    unfold blkExp expB
    rw [hl j]
    exact congrArg (fun f => Ideal.exp (logitB H W B n j
      - (Finset.univ : Finset (Fin 1024)).fold max (Ideal.ofBits .f32 0xFF800000#32) f)) (funext hl)
  unfold blkQ
  rw [he k]
  exact congrArg (Ideal.div (expB H W B n k)) (Finset.sum_congr rfl fun j _ => he j)

variable (m : (ℓ : Loc nD τ sig) → Buf (Elt Ideal) ℓ) (ρ : Dev nD → PrngReg)

/-- The flattened input, the codebook and the row of offsets as the region finds them. -/
abbrev Harr (c : Dev nD) : SH.Idx → EReal := V m c main_v0
abbrev Warr (c : Dev nD) : SW.Idx → EReal := V m c main_v1
abbrev Barr (c : Dev nD) : S1x1024.Idx → EReal := V m c main_v10

/-- The distribution array the region leaves. -/
def Qarr (c : Dev nD) : SQ.Idx → EReal := softQ (expB (Harr m c) (Warr m c) (Barr m c))
/-- The quantized array the region leaves. -/
def Zarr (c : Dev nD) : SH.Idx → EReal := quantZ (Qarr m c) (Warr m c)

/-! ## The index maps, decided over the grid -/

theorem hz : (![0, 0] : Fin 2 → Nat) = fun _ => 0 := funext fun a => by fin_cases a <;> rfl

/-- Point t's blocks: rows block t of the input and of both results, the one block of the codebook and of the offsets. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 64 := lt_of_lt_of_eq t.isLt N_0

/-- The array row under block row `r` of point `t`. -/
abbrev rowOf (t : Fin cfg0.N) (r : Fin 1024) : Fin 65536 := ⟨t.val * 1024 + r.val, by have := t_lt t; have := r.isLt; omega⟩

/-! ## The input blocks read where the arrays say -/

theorem in0_at (c : Dev nD) (t : Fin cfg0.N) (r : Fin 1024) (d : Fin 256) :
    iblk m c 0 t (ix2 r d) = Harr m c (ix2 (rowOf t r) d) := by
  obtain ⟨e0, e1, -⟩ := idx_facts t
  show V m c main_v0 (((cfg0.win 0).blk t).view.emb (ix2 r d)) = V m c main_v0 (ix2 (rowOf t r) d)
  refine congrArg (V m c main_v0) (funext fun x => Fin.ext ?_)
  match x with
  | ⟨0, _⟩ => show win0_0.index t (0 : Fin 2) * 1024 + 1 * r.val = t.val * 1024 + r.val; rw [e0]; omega
  | ⟨1, _⟩ => show win0_0.index t (1 : Fin 2) * 256 + 1 * d.val = d.val; rw [e1]; omega

theorem in1_at (c : Dev nD) (t : Fin cfg0.N) (k : Fin 1024) (d : Fin 256) :
    iblk m c 1 t (ix2 k d) = Warr m c (ix2 k d) := by
  obtain ⟨-, -, e0, e1, -⟩ := idx_facts t
  show V m c main_v1 (((cfg0.win 1).blk t).view.emb (ix2 k d)) = V m c main_v1 (ix2 k d)
  refine congrArg (V m c main_v1) (funext fun x => Fin.ext ?_)
  match x with
  | ⟨0, _⟩ => show win0_1.index t (0 : Fin 2) * 1024 + 1 * k.val = k.val; rw [e0]; omega
  | ⟨1, _⟩ => show win0_1.index t (1 : Fin 2) * 256 + 1 * d.val = d.val; rw [e1]; omega

theorem in2_at (c : Dev nD) (t : Fin cfg0.N) (k : Fin 1024) :
    iblk m c 2 t (ix2 (0 : Fin 1) k) = Barr m c (ix2 (0 : Fin 1) k) := by
  obtain ⟨-, -, -, -, e0, e1, -⟩ := idx_facts t
  show V m c main_v10 (((cfg0.win 2).blk t).view.emb (ix2 (0 : Fin 1) k)) = V m c main_v10 (ix2 (0 : Fin 1) k)
  refine congrArg (V m c main_v10) (funext fun x => Fin.ext ?_)
  match x with
  | ⟨0, _⟩ => show win0_2.index t (0 : Fin 2) * 1 + 1 * 0 = 0; rw [e0]
  | ⟨1, _⟩ => show win0_2.index t (1 : Fin 2) * 1024 + 1 * k.val = k.val; rw [e1]; omega

/-! ## What a point writes back -/

theorem emb4 (t : Fin cfg0.N) (r k : Fin 1024) :
    ((cfg0.win 4).blk t).view.emb (ix2 r k) = ix2 (rowOf t r) k := by
  obtain ⟨-, -, -, -, -, -, -, -, e0, e1⟩ := idx_facts t
  funext x; apply Fin.ext
  match x with
  | ⟨0, _⟩ => show win0_4.index t (0 : Fin 2) * 1024 + 1 * r.val = t.val * 1024 + r.val; rw [e0]; omega
  | ⟨1, _⟩ => show win0_4.index t (1 : Fin 2) * 1024 + 1 * k.val = k.val; rw [e1]; omega

theorem emb3 (t : Fin cfg0.N) (r : Fin 1024) (d : Fin 256) :
    ((cfg0.win 3).blk t).view.emb (ix2 r d) = ix2 (rowOf t r) d := by
  obtain ⟨-, -, -, -, -, -, e0, e1, -⟩ := idx_facts t
  funext x; apply Fin.ext
  match x with
  | ⟨0, _⟩ => show win0_3.index t (0 : Fin 2) * 1024 + 1 * r.val = t.val * 1024 + r.val; rw [e0]; omega
  | ⟨1, _⟩ => show win0_3.index t (1 : Fin 2) * 256 + 1 * d.val = d.val; rw [e1]; omega

/-- The distribution of block row `r` at point `t` is the array's row. -/
theorem blkQ_at (c : Dev nD) (t : Fin cfg0.N) (r k : Fin 1024) :
    blkQ (iblk m c 0 t) (iblk m c 1 t) (iblk m c 2 t) r k = Qarr m c (ix2 (rowOf t r) k) :=
  blkQ_eq (iblk m c 0 t) (iblk m c 1 t) (iblk m c 2 t) (Harr m c) (Warr m c) (Barr m c) r (rowOf t r)
    (in0_at m c t r) (in1_at m c t) (in2_at m c t) k

/-- WHAT POINT `t` WRITES BACK to the distribution array is its block of `Qarr`. -/
theorem flushed4_eq (c : Dev nD) (t : Fin cfg0.N) :
    (dats m 0 c).flushed 4 t = ((cfg0.win 4).blk t).view.read (Elt Ideal) (Qarr m c) := by
  show (cfg0.win 4).cut (grid0.coords t) ((dats m 0 c).after 4 t) = _
  rw [after0_4]
  unfold out0_4
  rw [View.canon_unit_zero hz]
  simp only [View.ld_unit_zero (S := S1024x256) hz, View.ld_unit_zero (S := S1x1024) hz]
  funext j
  obtain ⟨r, k, rfl⟩ : ∃ (r : Fin 1024) (k : Fin 1024), j = ix2 r k := ⟨j 0, j 1, eq_ix2 j⟩
  show k0_pay2 (F := Ideal) (iblk m c 0 t) (iblk m c 1 t) (iblk m c 2 t) (ix2 r k)
    = Qarr m c (((cfg0.win 4).blk t).view.emb (ix2 r k))
  rw [emb4]
  exact (pay2_apply _ _ _ r k).trans (blkQ_at m c t r k)

/-- WHAT POINT `t` WRITES BACK to the quantized array is its block of `Zarr`. -/
theorem flushed3_eq (c : Dev nD) (t : Fin cfg0.N) :
    (dats m 0 c).flushed 3 t = ((cfg0.win 3).blk t).view.read (Elt Ideal) (Zarr m c) := by
  show (cfg0.win 3).cut (grid0.coords t) ((dats m 0 c).after 3 t) = _
  rw [after0_3]
  unfold out0_3
  rw [View.canon_unit_zero hz]
  simp only [View.ld_unit_zero (S := S1024x256) hz, View.ld_unit_zero (S := S1x1024) hz]
  funext j
  obtain ⟨r, d, rfl⟩ : ∃ (r : Fin 1024) (d : Fin 256), j = ix2 r d := ⟨j 0, j 1, eq_ix2 j⟩
  show k0_pay3 (F := Ideal) (iblk m c 0 t) (iblk m c 1 t) (iblk m c 2 t) (ix2 r d)
    = Zarr m c (((cfg0.win 3).blk t).view.emb (ix2 r d))
  rw [emb3]
  refine (pay3_apply _ _ _ r d).trans ?_
  show _ = ∑ k : Fin 1024, Qarr m c (ix2 (rowOf t r) k) * Warr m c (ix2 k d)
  exact Finset.sum_congr rfl fun k _ => by rw [blkQ_at m c t r k, in1_at m c t k d]

/-! ## The blocks tile the arrays -/

theorem mem_blk4 (t : Fin cfg0.N) (i : S65536x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v11_1).slice (win0_4.rect t)).set ↔ _
  rw [View.set_slice_whole, Rect.mem_set_unit]
  exact Iff.rfl

theorem mem_blk3 (t : Fin cfg0.N) (i : S65536x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v11_0).slice (win0_3.rect t)).set ↔ _
  rw [View.set_slice_whole, Rect.mem_set_unit]
  exact Iff.rfl

/-- Row n lies in the block of point n / 1024. -/
theorem cover4 (i : S65536x1024.Idx) :
    ∃ t : Fin cfg0.N, (cfg0.win 4).flush t = true ∧ i ∈ ((cfg0.win 4).blk t).view.set := by
  have hi0 : (i 0).val < 65536 := (i 0).isLt
  have hi1 : (i 1).val < 1024 := (i 1).isLt
  have hN : (i 0).val / 1024 < cfg0.N := by rw [show cfg0.N = 64 from N_0]; omega
  refine ⟨⟨(i 0).val / 1024, hN⟩, flush0_4 _, ?_⟩
  obtain ⟨-, -, -, -, -, -, -, -, e0, e1⟩ := idx_facts ⟨(i 0).val / 1024, hN⟩
  rw [mem_blk4]
  intro a
  match a with
  | ⟨0, _⟩ =>
    show win0_4.index ⟨(i 0).val / 1024, hN⟩ (0 : Fin 2) * 1024 ≤ (i 0).val ∧ (i 0).val < win0_4.index ⟨(i 0).val / 1024, hN⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, hN⟩ (1 : Fin 2) * 1024 ≤ (i 1).val ∧ (i 1).val < win0_4.index ⟨(i 0).val / 1024, hN⟩ (1 : Fin 2) * 1024 + 1024
    rw [e1]; omega

theorem cover3 (i : S65536x256.Idx) :
    ∃ t : Fin cfg0.N, (cfg0.win 3).flush t = true ∧ i ∈ ((cfg0.win 3).blk t).view.set := by
  have hi0 : (i 0).val < 65536 := (i 0).isLt
  have hi1 : (i 1).val < 256 := (i 1).isLt
  have hN : (i 0).val / 1024 < cfg0.N := by rw [show cfg0.N = 64 from N_0]; omega
  refine ⟨⟨(i 0).val / 1024, hN⟩, flush0_3 _, ?_⟩
  obtain ⟨-, -, -, -, -, -, e0, e1, -⟩ := idx_facts ⟨(i 0).val / 1024, hN⟩
  rw [mem_blk3]
  intro a
  match a with
  | ⟨0, _⟩ =>
    show win0_3.index ⟨(i 0).val / 1024, hN⟩ (0 : Fin 2) * 1024 ≤ (i 0).val ∧ (i 0).val < win0_3.index ⟨(i 0).val / 1024, hN⟩ (0 : Fin 2) * 1024 + 1024
    rw [e0]; show (i 0).val / 1024 * 1024 ≤ (i 0).val ∧ (i 0).val < (i 0).val / 1024 * 1024 + 1024; omega
  | ⟨1, _⟩ =>
    show win0_3.index ⟨(i 0).val / 1024, hN⟩ (1 : Fin 2) * 256 ≤ (i 1).val ∧ (i 1).val < win0_3.index ⟨(i 0).val / 1024, hN⟩ (1 : Fin 2) * 256 + 256
    rw [e1]; omega

/-! ## The arrays after the last point -/

theorem final4 (c : Dev nD) : (dats m 0 c).arrAt 4 cfg0.N = Qarr m c :=
  (dats m 0 c).arrAt_eq_of_cover 4 (Qarr m c) (fun t _ => flushed4_eq m c t) cover4

theorem final3 (c : Dev nD) : (dats m 0 c).arrAt 3 cfg0.N = Zarr m c :=
  (dats m 0 c).arrAt_eq_of_cover 3 (Zarr m c) (fun t _ => flushed3_eq m c t) cover3

end Cert.VQ.Blocks

end
-- ==== Proof.KernelPrefix.lean ====
import proofs.«410244_j82214263980159_3_alg».proof.Proof.Gen.KernelIdeal.Frame
import proofs.«410244_j82214263980159_3_alg».proof.Proof.Spec
import Idealize.ShloMosaic.Lib.StableHlo.Run
import Idealize.ShloMosaic.Lib.ValueIdx
import Idealize.ShloMosaic.Lib.Pipeline.Value
import Idealize.ShloMosaic.PureOps.Ideal.Laws

/-!
  What the kernel program's arrays hold when its one region is entered, as values on the extended reals.

  Before the region the program flattens the input to 65536 rows of 256, converts the codebook to the narrower
  format (at the ideal values the conversion changes nothing), and prepares one row of 1024 offsets: the codebook's
  squared row norms (the sum from 0 of the squares along each row, laid out as a column and recast as a row),
  negated, divided by 256 and multiplied by 1.
-/

noncomputable section

namespace Cert.VQ.Prefix

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ)

/-- The first array of the region: the input, flattened to rows. -/
theorem V_rows (c : Dev nD) :
    (V m c main_v0 : S65536x256.Idx → EReal)
      = shapeCast S65536x256 (m ((c : Thread nD τ).loc main_arg0)) shapeCasts_S16x4096x256_S65536x256 := by
  show StableHlo.after hostOps0 (fun b => m (c, b)) (Proc.devRef .tc main_v0) = _
  after_results
  rfl

/-- The second: the codebook itself, the conversion to the narrower format being the identity at the ideal values. -/
theorem V_codebook (c : Dev nD) :
    (V m c main_v1 : S1024x256.Idx → EReal) = (m ((c : Thread nD τ).loc main_arg1) : S1024x256.Idx → EReal) := by
  show StableHlo.after hostOps0 (fun b => m (c, b)) (Proc.devRef .tc main_v1) = _
  after_results
  rfl

/-- The codebook's shape drops its second axis to the shape of one number per codebook row. -/
theorem reduces_cb : S1024x256.Reduces [1] S1024 := by decide

/-- The sum from 0 of a codebook row's squares is the row's squared norm. -/
theorem sqsum_at (w : S1024x256.Idx → EReal) (k : Fin 1024) :
    Host.reduceAdd (F := Ideal) (φ := .f32) (mulf (F := Ideal) (φ := .f32) w w)
        (constant (F := Ideal) S_ .f32 0x00000000#32) reducesTo_S1024x256_S1024_d1 h_S_ (ix1 k)
      = wsq w k := by
  simp only [Host.reduceAdd, Ideal.hostReduceAdd_def]
  rw [Ideal.hostReduceAdd_single reducesTo_S1024x256_S1024_d1 reduces_cb]
  show Ideal.ofBits .f32 0x00000000#32 + _ = _
  rw [Ideal.ofBits_zero_f32, zero_add]
  unfold wsq
  refine Finset.sum_congr rfl fun d _ => ?_
  have e : reduces_cb.lift (ix1 k) d = ix2 k d :=
    funext fun a => Fin.ext (by match a with | ⟨0, _⟩ => rfl | ⟨1, _⟩ => rfl)
  rw [e]
  rfl

/-- A column of 1024 numbers recast as a row: the row's entry k is the column's entry k, the column being the
    broadcast of a vector of 1024 numbers along a unit axis. -/
theorem col_at (r : S1024.Idx → EReal) (k : Fin 1024) :
    shapeCast S1x1024 (broadcastInDim S1024x1 ![0] bcast_S1024_S1024x1_0 r) shapeCasts_S1024x1_S1x1024
        (ix2 (0 : Fin 1) k)
      = r (ix1 k) := by
  rw [shapeCast_apply _ shapeCasts_S1024x1_S1x1024 (ix2 (0 : Fin 1) k) (ix2 k (0 : Fin 1))
    (by rewrite [Shape.rowMajor_val_two, Shape.rowMajor_val_two]
        show k.val * 1 + 0 = 0 * 1024 + k.val
        omega)]
  exact broadcastInDim_apply _ bcast_S1024_S1024x1_0 r (ix2 k (0 : Fin 1)) (ix1 k) (fun a => match a with
    | ⟨0, _⟩ => by show k.val = if (1024 : Nat) = 1 then 0 else k.val; rw [if_neg (by decide)])

/-- A constant splat along the row is the constant at every column. -/
theorem splat_at (b : BitVec 32) (i : S1x1024.Idx) :
    broadcastInDim S1x1024 ![] bcast_S_S1x1024 (constant (F := Ideal) S_ .f32 b) i = Ideal.ofBits .f32 b :=
  (broadcastInDim_apply _ bcast_S_S1x1024 (constant (F := Ideal) S_ .f32 b) i (fun a => a.elim0)
    (fun a => a.elim0)).trans rfl

/-- The operations that prepare the offsets, composed, read at a column: the negated squared norm of that codebook
    row, divided by 256 and multiplied by 1. -/
theorem offsets_term_at (w : S1024x256.Idx → EReal) (k : Fin 1024) :
    (mulf (F := Ideal) (φ := .f32)
        (Host.divf (F := Ideal) (φ := .f32)
          (Host.negf (F := Ideal) (φ := .f32) (shapeCast S1x1024
            (broadcastInDim S1024x1 ![0] bcast_S1024_S1024x1_0
              (Host.reduceAdd (F := Ideal) (φ := .f32) (mulf (F := Ideal) (φ := .f32) w w)
                (constant (F := Ideal) S_ .f32 0x00000000#32) reducesTo_S1024x256_S1024_d1 h_S_))
            shapeCasts_S1024x1_S1x1024))
          (broadcastInDim S1x1024 ![] bcast_S_S1x1024 (constant (F := Ideal) S_ .f32 0x43800000#32)))
        (broadcastInDim S1x1024 ![] bcast_S_S1x1024 (constant (F := Ideal) S_ .f32 0x3F800000#32)))
      (ix2 (0 : Fin 1) k)
      = Ideal.div (-(wsq w k)) (Ideal.ofBits .f32 0x43800000#32) * Ideal.ofBits .f32 0x3F800000#32 := by
  show FloatOps.mulf (F := Ideal) (φ := .f32)
      (FloatOps.hostDivf (F := Ideal) (φ := .f32)
        (FloatOps.hostNegf (F := Ideal) (φ := .f32) (shapeCast S1x1024
          (broadcastInDim S1024x1 ![0] bcast_S1024_S1024x1_0
            (Host.reduceAdd (F := Ideal) (φ := .f32) (mulf (F := Ideal) (φ := .f32) w w)
              (constant (F := Ideal) S_ .f32 0x00000000#32) reducesTo_S1024x256_S1024_d1 h_S_))
          shapeCasts_S1024x1_S1x1024 (ix2 (0 : Fin 1) k)))
        (broadcastInDim S1x1024 ![] bcast_S_S1x1024 (constant (F := Ideal) S_ .f32 0x43800000#32) (ix2 (0 : Fin 1) k)))
      (broadcastInDim S1x1024 ![] bcast_S_S1x1024 (constant (F := Ideal) S_ .f32 0x3F800000#32) (ix2 (0 : Fin 1) k))
    = _
  rw [col_at, sqsum_at, splat_at, splat_at]
  rfl

/-- The third array of the region: the row of offsets, as the composed operations. -/
theorem V_offsets_term (c : Dev nD) :
    (V m c main_v10 : S1x1024.Idx → EReal)
      = mulf (F := Ideal) (φ := .f32)
        (Host.divf (F := Ideal) (φ := .f32)
          (Host.negf (F := Ideal) (φ := .f32) (shapeCast S1x1024
            (broadcastInDim S1024x1 ![0] bcast_S1024_S1024x1_0
              (Host.reduceAdd (F := Ideal) (φ := .f32)
                (mulf (F := Ideal) (φ := .f32) (m ((c : Thread nD τ).loc main_arg1)) (m ((c : Thread nD τ).loc main_arg1)))
                (constant (F := Ideal) S_ .f32 0x00000000#32) reducesTo_S1024x256_S1024_d1 h_S_))
            shapeCasts_S1024x1_S1x1024))
          (broadcastInDim S1x1024 ![] bcast_S_S1x1024 (constant (F := Ideal) S_ .f32 0x43800000#32)))
        (broadcastInDim S1x1024 ![] bcast_S_S1x1024 (constant (F := Ideal) S_ .f32 0x3F800000#32)) := by
  show StableHlo.after hostOps0 (fun b => m (c, b)) (Proc.devRef .tc main_v10) = _
  after_results
  rfl

/-- The row of offsets at column k: the negated squared norm of codebook row k, divided by 256 and multiplied by 1. -/
theorem V_offsets (c : Dev nD) (k : Fin 1024) :
    (V m c main_v10 : S1x1024.Idx → EReal) (ix2 (0 : Fin 1) k)
      = Ideal.div (-(Cert.VQ.wsq (m ((c : Thread nD τ).loc main_arg1)) k)) (Ideal.ofBits .f32 0x43800000#32)
          * Ideal.ofBits .f32 0x3F800000#32 := by
  rw [V_offsets_term]
  exact offsets_term_at (m ((c : Thread nD τ).loc main_arg1)) k

end Cert.VQ.Prefix

end
-- ==== Proof.KernelTail.lean ====
/-
  The kernel program's two host operations after its region, read as values.

  After the region the program reshapes the region's two output arrays: the [65536, 256] array of window 3
  to [16, 4096, 256] and the [65536, 1024] array of window 4 to [16, 4096, 1024]. At the region's exit each array
  holds what the write-backs of all the grid points have left in it, so each reshaped buffer is the shape cast of
  that array: the same elements in row-major order.
-/
import proofs.«410244_j82214263980159_3_alg».proof.Proof.Gen.KernelIdeal.Frame
import Idealize.ShloMosaic.Lib.StableHlo.Run
import Idealize.ShloMosaic.Lib.Pipeline.Value

noncomputable section

namespace Cert.VQ.Tail

open Idealize.ShloMosaic Idealize.ShloMosaic.TcCoe
open Idealize.SL Idealize.SL.Sem
open Cert.KernelIdeal Cert.KernelIdeal.Gen

variable {F : FTy → Type} [FloatOps F] (m : (ℓ : Loc nD τ sig) → Buf (Elt F) ℓ)

/-- The first reshape's result is the shape cast of window 3's array as the region leaves it. -/
theorem tail_v12 (c : Dev nD) :
    Pipeline.afterTail₀ cfgs (dats m) 0 (V0 m) [hostOps1] c main_v12
      = shapeCast S16x4096x256 ((dats m 0 c).arrAt 3 cfg0.N) shapeCasts_S65536x256_S16x4096x256 := by
  unfold Pipeline.afterTail₀
  show StableHlo.after hostOps1 _ (Proc.devRef .tc main_v12) = _
  after_results
  have h := Pipeline.withArrays_arr spec0 launch0.win.arr_inj c (V0 m c) (fun w => (dats m 0 c).arrAt w cfg0.N) 3
  exact funext fun i => congrArg (fun x => shapeCast S16x4096x256 x shapeCasts_S65536x256_S16x4096x256 i) h

/-- The second reshape's result is the shape cast of window 4's array as the region leaves it. -/
theorem tail_v13 (c : Dev nD) :
    Pipeline.afterTail₀ cfgs (dats m) 0 (V0 m) [hostOps1] c main_v13
      = shapeCast S16x4096x1024 ((dats m 0 c).arrAt 4 cfg0.N) shapeCasts_S65536x1024_S16x4096x1024 := by
  unfold Pipeline.afterTail₀
  show StableHlo.after hostOps1 _ (Proc.devRef .tc main_v13) = _
  after_results
  have h := Pipeline.withArrays_arr spec0 launch0.win.arr_inj c (V0 m c) (fun w => (dats m 0 c).arrAt w cfg0.N) 4
  exact funext fun i => congrArg (fun x => shapeCast S16x4096x1024 x shapeCasts_S65536x1024_S16x4096x1024 i) h

end Cert.VQ.Tail

end
-- ==== Proof.KernelRun.lean ====
/-
  The kernel program's run, read as values of its arguments.

  Before its region the program flattens the input to 65536 rows, takes the codebook as it is (a change of format
  is the identity on the extended reals) and computes the row of offsets -|w_k|²/256 · 1; with these the block
  logits are h·w_k · (1/128) - |w_k|²/256 · 1. After the region it only reshapes the two arrays the region left.
-/
import proofs.«410244_j82214263980159_3_alg».proof.Proof.KernelBlocks
import proofs.«410244_j82214263980159_3_alg».proof.Proof.KernelPrefix
import proofs.«410244_j82214263980159_3_alg».proof.Proof.KernelTail
import proofs.«410244_j82214263980159_3_alg».proof.Proof.Spec

noncomputable section

namespace Cert.VQ.Run

open Cert.KernelIdeal Cert.KernelIdeal.Gen Idealize.ShloMosaic Idealize.ShloMosaic.ValueIdx Idealize.ShloMosaic.TcCoe
open Idealize.SL.Sem
open Cert.VQ.Blocks

/-- With the offsets -|w_k|²/256 · 1 the block logits are the logits without the row's own squared norm. -/
theorem expB_eq_expK (H : SH.Idx → EReal) (W : SW.Idx → EReal) (B : S1x1024.Idx → EReal)
    (hB : ∀ k : Fin 1024, B (ix2 (0 : Fin 1) k)
      = Ideal.div (-(wsq W k)) (Ideal.ofBits .f32 0x43800000#32) * Ideal.ofBits .f32 0x3F800000#32) :
    expB H W B = expK H W := by
  have hl : ∀ n k, logitB H W B n k = logitK H W n k := fun n k => by
    unfold logitB logitK cross
    rw [hB k]
  funext n k
  unfold expB expK
  rw [hl n k]
  exact congrArg (fun f => Ideal.exp (logitK H W n k
    - (Finset.univ : Finset (Fin 1024)).fold max (Ideal.ofBits .f32 0xFF800000#32) f)) (funext (hl n))

variable (m : (ℓ : Loc nD τ sig) → Buf (Elt Ideal) ℓ) (ρ : Dev nD → PrngReg)

theorem Harr_eq (c : Dev nD) :
    Harr m c = shapeCast S65536x256 (m ((c : Thread nD τ).loc main_arg0)) shapeCasts_S16x4096x256_S65536x256 :=
  Cert.VQ.Prefix.V_rows m c
theorem Warr_eq (c : Dev nD) : Warr m c = m ((c : Thread nD τ).loc main_arg1) :=
  Cert.VQ.Prefix.V_codebook m c
theorem Barr_at (c : Dev nD) (k : Fin 1024) : Barr m c (ix2 (0 : Fin 1) k)
    = Ideal.div (-(wsq (m ((c : Thread nD τ).loc main_arg1)) k)) (Ideal.ofBits .f32 0x43800000#32) * Ideal.ofBits .f32 0x3F800000#32 :=
  Cert.VQ.Prefix.V_offsets m c k

/-- The distribution array the region leaves, of the arguments. -/
theorem Qarr_eq (c : Dev nD) : Qarr m c
    = softQ (expK (shapeCast S65536x256 (m ((c : Thread nD τ).loc main_arg0)) shapeCasts_S16x4096x256_S65536x256)
        (m ((c : Thread nD τ).loc main_arg1))) := by
  unfold Qarr
  rw [expB_eq_expK (Harr m c) (Warr m c) (Barr m c) (fun k => by rw [Barr_at, Warr_eq]), Harr_eq, Warr_eq]

/-- The quantized array the region leaves, of the arguments. -/
theorem Zarr_eq (c : Dev nD) : Zarr m c
    = quantZ (softQ (expK (shapeCast S65536x256 (m ((c : Thread nD τ).loc main_arg0)) shapeCasts_S16x4096x256_S65536x256)
        (m ((c : Thread nD τ).loc main_arg1)))) (m ((c : Thread nD τ).loc main_arg1)) := by
  unfold Zarr
  rw [Qarr_eq, Warr_eq]

/-- Every weakly fair execution of the program ends with its two results at the reshaped softmax quotient and the
    reshaped combination with the codebook, of the arguments, and the arguments unchanged. -/
theorem run : θ_run defs (onTc (τ := τ) (main (F := Ideal))) ⟨m, fun _ => 0, ρ⟩ fun r => ∀ c : Dev nD,
      r.2.mem ((c.tc : Thread nD τ).loc main_v12)
        = shapeCast S16x4096x256 (quantZ (softQ (expK (shapeCast S65536x256 (m ((c.tc : Thread nD τ).loc main_arg0)) shapeCasts_S16x4096x256_S65536x256)
            (m ((c.tc : Thread nD τ).loc main_arg1)))) (m ((c.tc : Thread nD τ).loc main_arg1))) shapeCasts_S65536x256_S16x4096x256
      ∧ r.2.mem ((c.tc : Thread nD τ).loc main_v13)
        = shapeCast S16x4096x1024 (softQ (expK (shapeCast S65536x256 (m ((c.tc : Thread nD τ).loc main_arg0)) shapeCasts_S16x4096x256_S65536x256)
            (m ((c.tc : Thread nD τ).loc main_arg1)))) shapeCasts_S65536x1024_S16x4096x1024
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v12 (Pipeline.mem_restRefs_of main_v12 (by decide) (by decide))).trans
        ((Cert.VQ.Tail.tail_v12 m c).trans (by rw [final3, Zarr_eq])),
      ((h c).2 main_v13 (Pipeline.mem_restRefs_of main_v13 (by decide) (by decide))).trans
        ((Cert.VQ.Tail.tail_v13 m c).trans (by rw [final4, Qarr_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.VQ.Run

end
-- ==== Proof.lean ====
/-
  Soft vector quantization: a tiled kernel against its plain reference, on the extended reals.

  Both programs flatten the input to 65536 rows h of 256 numbers and, for a codebook of 1024 rows w_k, compute for
  every row the softmax over k of the negated mean squared distance -(|h|² + |w_k|² - 2 h·w_k)/256, and then the
  combination of the codebook's rows with that distribution. The reference computes the logits as written. The
  kernel leaves out -|h|²/256, which is the same for every k of a row: its logits are h·w_k · (1/128) + (-|w_k|²/256)·1,
  the second summand a row computed once before the region. Both subtract the row's maximum before exponentiating,
  so a summand that is constant along the row cancels — provided it is a real number, which is where the finiteness
  of the inputs is used: with real entries every inner product and squared norm is real, the row maxima are real,
  and (a - c) - (μ - c) = a - μ. From the exponentials on, the two programs are the same function: each row divided
  by its sum, then the product with the codebook, then a reshape.

  The kernel's run is read off its frame: every grid point writes back its block of one function of the arrays the
  region starts from, the 64 blocks tile the two result arrays, and the host operations around the region are read
  as values. The reference's run is read one operation at a time.
-/
import proofs.«410244_j82214263980159_3_alg».proof.Defs
import proofs.«410244_j82214263980159_3_alg».proof.Proof.Gen.Kernel
import proofs.«410244_j82214263980159_3_alg».proof.Proof.Gen.Kernel.Skeleton
import proofs.«410244_j82214263980159_3_alg».proof.Proof.Gen.Kernel.Launch
import proofs.«410244_j82214263980159_3_alg».proof.Proof.Gen.Kernel.Points
import proofs.«410244_j82214263980159_3_alg».proof.Proof.Gen.Kernel.Frame
import proofs.«410244_j82214263980159_3_alg».proof.Proof.Gen.KernelIdeal
import proofs.«410244_j82214263980159_3_alg».proof.Proof.Gen.KernelIdeal.Skeleton
import proofs.«410244_j82214263980159_3_alg».proof.Proof.Gen.KernelIdeal.Launch
import proofs.«410244_j82214263980159_3_alg».proof.Proof.Gen.KernelIdeal.Points
import proofs.«410244_j82214263980159_3_alg».proof.Proof.Gen.KernelIdeal.Frame
import proofs.«410244_j82214263980159_3_alg».proof.Proof.Gen.ReferenceIdeal
import proofs.«410244_j82214263980159_3_alg».proof.Proof.Gen.Pre_finite_inputs
import Idealize.ShloMosaic.Adequacy
import Idealize.ShloMosaic.Init
import proofs.«410244_j82214263980159_3_alg».proof.Proof.Gen.ReferenceIdeal.Run
import proofs.«410244_j82214263980159_3_alg».proof.Proof.Gen.ReferenceIdeal.Read
import proofs.«410244_j82214263980159_3_alg».proof.Proof.Spec
import proofs.«410244_j82214263980159_3_alg».proof.Proof.ShiftLaw
import proofs.«410244_j82214263980159_3_alg».proof.Proof.FiniteInputs
import proofs.«410244_j82214263980159_3_alg».proof.Proof.RefStages
import proofs.«410244_j82214263980159_3_alg».proof.Proof.KernelRun

noncomputable section

namespace Cert.Proof

open Idealize.ShloMosaic Idealize.SL.Sem Idealize.ShloMosaic.TcCoe

/-- The reference's two results as the reshaped softmax quotient (of the distance logits) and its reshaped
    combination with the codebook, of the arguments. -/
theorem ref_results (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v32 (F := Ideal) m c
        = shapeCast Cert.ReferenceIdeal.S16x4096x256 (Cert.VQ.quantZ (Cert.VQ.softQ (Cert.VQ.expR
            (shapeCast Cert.ReferenceIdeal.S65536x256 (m ((c.tc : Thread Cert.ReferenceIdeal.nD Cert.ReferenceIdeal.τ).loc Cert.ReferenceIdeal.main_arg0))
              Cert.ReferenceIdeal.Facts₀.shapeCasts_S16x4096x256_S65536x256)
            (m ((c.tc : Thread Cert.ReferenceIdeal.nD Cert.ReferenceIdeal.τ).loc Cert.ReferenceIdeal.main_arg1))))
            (m ((c.tc : Thread Cert.ReferenceIdeal.nD Cert.ReferenceIdeal.τ).loc Cert.ReferenceIdeal.main_arg1)))
          Cert.ReferenceIdeal.Facts₀.shapeCasts_S65536x256_S16x4096x256
    ∧ Cert.ReferenceIdeal.Value.res_main_v33 (F := Ideal) m c
        = shapeCast Cert.ReferenceIdeal.S16x4096x1024 (Cert.VQ.softQ (Cert.VQ.expR
            (shapeCast Cert.ReferenceIdeal.S65536x256 (m ((c.tc : Thread Cert.ReferenceIdeal.nD Cert.ReferenceIdeal.τ).loc Cert.ReferenceIdeal.main_arg0))
              Cert.ReferenceIdeal.Facts₀.shapeCasts_S16x4096x256_S65536x256)
            (m ((c.tc : Thread Cert.ReferenceIdeal.nD Cert.ReferenceIdeal.τ).loc Cert.ReferenceIdeal.main_arg1))))
          Cert.ReferenceIdeal.Facts₀.shapeCasts_S65536x1024_S16x4096x1024 := by
  constructor
  · rw [Cert.ReferenceIdeal.Read.val_main_v32_eq]
    unfold Cert.ReferenceIdeal.Read.val_main_v32
    rw [Cert.VQ.RefSide.z_eq]
    rfl
  · rw [Cert.ReferenceIdeal.Read.val_main_v33_eq]
    unfold Cert.ReferenceIdeal.Read.val_main_v33
    rw [Cert.VQ.RefSide.q_eq]
    rfl

/-- A flattened array of reals is an array of reals. -/
theorem real_rows {s t : Shape} (x : s.Idx → EReal) (h : s.ShapeCasts t) (hx : ∀ i, ∃ r : ℝ, x i = (r : EReal)) :
    ∀ j, ∃ r : ℝ, shapeCast t x h j = (r : EReal) := fun j => by
  unfold shapeCast
  exact hx _

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on finite arguments the two programs end with equal results: the kernel's run and the
    reference's run state the same reshaped arrays, once the reference's exponentials are the kernel's. -/
theorem algebraic : Cert.algebraic_KernelIdeal_ReferenceIdeal := by
  intro m ρ m' ρ' hpre hagree
  refine ⟨_, _, Cert.VQ.Run.run m ρ, ?_⟩
  refine (θ_run Cert.ReferenceIdeal.defs _ _).mono (fun _ h c => ?_) (Cert.ReferenceIdeal.Value.run (F := Ideal) m' ρ')
  obtain ⟨hx, hw⟩ := Cert.VQ.real_of_pre _ _ (hpre c)
  have hlaw := Cert.VQ.expR_eq_expK _ _ (real_rows _ Cert.KernelIdeal.Facts₀.shapeCasts_S16x4096x256_S65536x256 hx) hw
  refine ⟨(h c).1.trans ?_, (h c).2.1.trans ?_, (h c).2.2.1, (h c).2.2.2⟩
  · rw [(ref_results m' c).1, (hagree c).1, (hagree c).2]
    exact congrArg (fun p => shapeCast Cert.ReferenceIdeal.S16x4096x256 (Cert.VQ.quantZ (Cert.VQ.softQ p) _) _) hlaw
  · rw [(ref_results m' c).2, (hagree c).1, (hagree c).2]
    exact congrArg (fun p => shapeCast Cert.ReferenceIdeal.S16x4096x1024 (Cert.VQ.softQ p) _) hlaw

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
